-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part4 {F : FTy → Type} [FloatOps F] (main_arg14 : FVec F S1x2048 .f32) (main_v63 : IVec S_ 1) (main_v67 : IVec S_ 1) : IVec S_ 1 :=
  let main_v68 : IVec S_ 1 := andi main_v63 main_v67
  let main_v69 : FVec F S1x2048 .f32 := Host.absf main_arg14
  let main_cst_26 : FVec F S_ .f32 := constant S_ .f32 0x7F800000#32
  let main_v70 : FVec F S1x2048 .f32 := broadcastInDim S1x2048 ![] bcast_S_S1x2048 main_cst_26
  let main_v71 : IVec S1x2048 1 := cmpf .olt main_v69 main_v70
  let main_c_27 : IVec S_ 1 := constantI S_ 1 1#1
  let main_v72 : IVec S_ 1 := (fun x v => Host.reduce IntOp.andi x v reducesTo_S1x2048_S_d0_1 h_S_) main_v71 main_c_27
  let main_v73 : IVec S_ 1 := andi main_v68 main_v72
  main_v73

def fn_part3 {F : FTy → Type} [FloatOps F] (main_arg11 : FVec F S1x2048 .f32) (main_arg12 : FVec F S1x2048 .f32) (main_arg13 : FVec F S1x2048 .f32) (main_arg14 : FVec F S1x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S1x2048 .f32 := Host.absf main_arg11
  let main_cst_20 : FVec F S_ .f32 := constant S_ .f32 0x7F800000#32
  let main_v55 : FVec F S1x2048 .f32 := broadcastInDim S1x2048 ![] bcast_S_S1x2048 main_cst_20
  let main_v56 : IVec S1x2048 1 := cmpf .olt main_v54 main_v55
  let main_c_21 : IVec S_ 1 := constantI S_ 1 1#1
  let main_v57 : IVec S_ 1 := (fun x v => Host.reduce IntOp.andi x v reducesTo_S1x2048_S_d0_1 h_S_) main_v56 main_c_21
  let main_v58 : IVec S_ 1 := andi main_v53 main_v57
  let main_v59 : FVec F S1x2048 .f32 := Host.absf main_arg12
  let main_cst_22 : FVec F S_ .f32 := constant S_ .f32 0x7F800000#32
  let main_v60 : FVec F S1x2048 .f32 := broadcastInDim S1x2048 ![] bcast_S_S1x2048 main_cst_22
  let main_v61 : IVec S1x2048 1 := cmpf .olt main_v59 main_v60
  let main_c_23 : IVec S_ 1 := constantI S_ 1 1#1
  let main_v62 : IVec S_ 1 := (fun x v => Host.reduce IntOp.andi x v reducesTo_S1x2048_S_d0_1 h_S_) main_v61 main_c_23
  let main_v63 : IVec S_ 1 := andi main_v58 main_v62
  let main_v64 : FVec F S1x2048 .f32 := Host.absf main_arg13
  let main_cst_24 : FVec F S_ .f32 := constant S_ .f32 0x7F800000#32
  let main_v65 : FVec F S1x2048 .f32 := broadcastInDim S1x2048 ![] bcast_S_S1x2048 main_cst_24
  let main_v66 : IVec S1x2048 1 := cmpf .olt main_v64 main_v65
  let main_c_25 : IVec S_ 1 := constantI S_ 1 1#1
  let main_v67 : IVec S_ 1 := (fun x v => Host.reduce IntOp.andi x v reducesTo_S1x2048_S_d0_1 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S1024x2048 .f32) (main_arg5 : FVec F S1024x2048 .f32) (main_arg6 : FVec F S1024x2048 .f32) (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1024x1024 .f32) (main_arg1 : FVec F S1024x2048 .f32) (main_arg2 : FVec F S1024x2048 .f32) (main_arg3 : FVec F S1024x2048 .f32) (main_arg4 : FVec F S1024x2048 .f32) (main_arg5 : FVec F S1024x2048 .f32) (main_arg6 : FVec F S1024x2048 .f32) (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1024x1024 : Shape := ⟨2, ![1024, 1024]⟩
abbrev S1024x2048 : Shape := ⟨2, ![1024, 2048]⟩
abbrev S2048x2048 : Shape := ⟨2, ![2048, 2048]⟩
abbrev S1x2048 : Shape := ⟨2, ![1, 2048]⟩
abbrev S256x1024 : Shape := ⟨2, ![256, 1024]⟩
abbrev S256x2048 : Shape := ⟨2, ![256, 2048]⟩
abbrev S256x512 : Shape := ⟨2, ![256, 512]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 17
  | .vmem => 22
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1024x2048, .f32⟩
  | .hbm, ⟨16, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x512, .f32⟩
  | .local _ .vmem, ⟨5, _⟩ => ⟨S256x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S2048x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S2048x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S2048x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S2048x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256x512_S256x512_0_0 : ∀ a, (![0, 0] : Fin 2 → Nat) a + S256x512.size a ≤ S256x512.size a
  h_S256x512 : 0 < S256x512.numel
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  broadcasts_S1x512_S256x512 : S1x512.Broadcasts S256x512
  dot_S256x1024_S1024x512_S256x512_1_0_0_1_n_n_wf : DotDims.WF S256x1024 S1024x512 S256x512 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S1024x2048.size a
  hwx0_1 : ∀ i : grid0.Coords, EltTy.bits .f32 = 32 ∨ (Rect.block (s := S1024x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S1024x2048.size a
  hwx0_2 : ∀ i : grid0.Coords, EltTy.bits .f32 = 32 ∨ (Rect.block (s := S1024x2048) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x2048.size a
  hwx0_3 : ∀ i : grid0.Coords, EltTy.bits .f32 = 32 ∨ (Rect.block (s := S1024x2048) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x2048.size a
  hwx0_4 : ∀ i : grid0.Coords, EltTy.bits .f32 = 32 ∨ (Rect.block (s := S1024x2048) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x2048.size a
  hwx0_5 : ∀ i : grid0.Coords, EltTy.bits .f32 = 32 ∨ (Rect.block (s := S1024x2048) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x2048.size a
  hwx0_6 : ∀ i : grid0.Coords, EltTy.bits .f32 = 32 ∨ (Rect.block (s := S1024x2048) S1024x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x2048.size a
  hwx0_7 : ∀ i : grid0.Coords, EltTy.bits .f32 = 32 ∨ (Rect.block (s := S2048x2048) S2048x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x2048.size a
  hwx0_8 : ∀ i : grid0.Coords, EltTy.bits .f32 = 32 ∨ (Rect.block (s := S2048x2048) S2048x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x2048.size a
  hwx0_9 : ∀ i : grid0.Coords, EltTy.bits .f32 = 32 ∨ (Rect.block (s := S2048x2048) S2048x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x512.size a ≤ S2048x2048.size a
  hwx0_10 : ∀ i : grid0.Coords, EltTy.bits .f32 = 32 ∨ (Rect.block (s := S2048x2048) S2048x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x2048.size a
  hwx0_11 : ∀ i : grid0.Coords, EltTy.bits .f32 = 32 ∨ (Rect.block (s := S1x2048) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x2048.size a
  hwx0_12 : ∀ i : grid0.Coords, EltTy.bits .f32 = 32 ∨ (Rect.block (s := S1x2048) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x2048.size a
  hwx0_13 : ∀ i : grid0.Coords, EltTy.bits .f32 = 32 ∨ (Rect.block (s := S1x2048) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x2048.size a
  hwx0_14 : ∀ i : grid0.Coords, EltTy.bits .f32 = 32 ∨ (Rect.block (s := S1x2048) S1x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S1024x2048.size a
  hwx0_15 : ∀ i : grid0.Coords, EltTy.bits .f32 = 32 ∨ (Rect.block (s := S1024x2048) S256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S1024x2048.size a
  hwx0_16 : ∀ i : grid0.Coords, EltTy.bits .f32 = 32 ∨ (Rect.block (s := S1024x2048) S256x512.size (cc0_transform_16 i) (hinb0_16 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2048x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S256x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S256x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S_, .f32⟩
  | .hbm, ⟨52, _⟩ => ⟨S1024x2048, .f32⟩
  | .hbm, ⟨53, _⟩ => ⟨S1024x2048, .f32⟩
  | .hbm, ⟨54, _⟩ => ⟨S1024x2048, .f32⟩
  | .hbm, ⟨55, _⟩ => ⟨S1024x2048, .f32⟩
  | .hbm, ⟨56, _⟩ => ⟨S1024x2048, .f32⟩
  | .hbm, ⟨57, _⟩ => ⟨S1024x2048, .f32⟩
  | .hbm, ⟨58, _⟩ => ⟨S1024x2048, .f32⟩
  | .hbm, ⟨59, _⟩ => ⟨S1024x2048, .f32⟩
  | .hbm, ⟨60, _⟩ => ⟨S1024x2048, .f32⟩
  | .hbm, ⟨61, _⟩ => ⟨S1024x2048, .f32⟩
  | .hbm, ⟨62, _⟩ => ⟨S1024x2048, .f32⟩
  | .hbm, ⟨63, _⟩ => ⟨S1024x2048, .f32⟩
  | .hbm, ⟨64, _⟩ => ⟨S1024x2048, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  dot_S1024x1024_S1024x2048_S1024x2048_1_0_0_1_n_n_wf : DotDims.WF S1024x1024 S1024x2048 S1024x2048 [1] [0] [0] [1] [] []
  dot_S1024x2048_S2048x2048_S1024x2048_1_0_0_1_n_n_wf : DotDims.WF S1024x2048 S2048x2048 S1024x2048 [1] [0] [0] [1] [] []

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.TileEntry.lean ====
/-
  What the kernel body stores, read at one entry of an output block, over the extended reals.

  At a grid point the body holds a 256-row slab of the input and of the hidden state, a 256 by 512 tile of the old cell state,
  and for each gate a 512-column slab of its weights, its recurrent weights and its bias. Narrowing a value to sixteen bits is
  the identity on the extended reals, and a matrix product into the zero matrix is the plain sum over the contraction
  coordinate. So at row p and column q of the tile each gate's pre-activation is
      (sum over k of X(p, k) * W(k, q)) + (sum over k of H(p, k) * U(k, q)) + B(0, q),
  the stored cell state is logistic(z_f) * C(p, q) + logistic(z_i) * tanh(z_c), and the stored hidden state is
  logistic(z_o) * tanh of that cell state.
-/
import proofs.«126930_j41420664603057_1_alg».proof.Proof.Gen.KernelIdeal.Skeleton
import proofs.«126930_j41420664603057_1_alg».proof.Proof.LibPlainMatmul
import Idealize.ShloMosaic.PureOps.Ideal.Laws
import Idealize.ShloMosaic.Lib.ValueIdx

noncomputable section

open scoped BigOperators
open Idealize.ShloMosaic Idealize.ShloMosaic.ValueIdx
open Cert.KernelIdeal Cert.KernelIdeal.Gen

namespace Cert.Cell.Block

/-- A gate's pre-activation at row `p`, column `q` of a tile, from the slabs the body holds. -/
def gateTile (X : S256x1024.Idx → EReal) (H : S256x2048.Idx → EReal) (W : S1024x512.Idx → EReal) (U : S2048x512.Idx → EReal)
    (B : S1x512.Idx → EReal) (p : Fin 256) (q : Fin 512) : EReal :=
  (∑ k : Fin 1024, X (ix2 p k) * W (ix2 k q)) + (∑ k : Fin 2048, H (ix2 p k) * U (ix2 k q)) + B (ix2 (0 : Fin 1) q)

/-- The new cell state at row `p`, column `q` of a tile. -/
def cellTile (X : S256x1024.Idx → EReal) (H : S256x2048.Idx → EReal) (C : S256x512.Idx → EReal)
    (Wf Wi Wc : S1024x512.Idx → EReal) (Uf Ui Uc : S2048x512.Idx → EReal) (Bf Bi Bc : S1x512.Idx → EReal)
    (p : Fin 256) (q : Fin 512) : EReal :=
  Ideal.logistic (gateTile X H Wf Uf Bf p q) * C (ix2 p q)
    + Ideal.logistic (gateTile X H Wi Ui Bi p q) * Ideal.tanh (gateTile X H Wc Uc Bc p q)

/-- The body's expression for one gate's pre-activation — both products over the narrowed slabs into zero, added, plus the
    bias row spread down the tile — at one entry. -/
theorem gate_entry (X : Vec Ideal S256x1024 .f32) (H : Vec Ideal S256x2048 .f32) (W : Vec Ideal S1024x512 .f32)
    (U : Vec Ideal S2048x512 .f32) (B : Vec Ideal S1x512 .f32) (p : Fin 256) (q : Fin 512) :
    addf (F := Ideal) (addf (F := Ideal) (matmul (F := Ideal) dot_S256x1024_S1024x512_S256x512_1_0_0_1_n_n none
            (truncf (F := Ideal) .bf16 X bitsLt_bf16_f32) (truncf (F := Ideal) .bf16 W bitsLt_bf16_f32)
            (constant (F := Ideal) S256x512 .f32 0x00000000#32))
          (matmul (F := Ideal) dot_S256x2048_S2048x512_S256x512_1_0_0_1_n_n none
            (truncf (F := Ideal) .bf16 H bitsLt_bf16_f32) (truncf (F := Ideal) .bf16 U bitsLt_bf16_f32)
            (constant (F := Ideal) S256x512 .f32 0x00000000#32)))
        (broadcastTo S256x512 B broadcasts_S1x512_S256x512) (ix2 p q)
      = gateTile X H W U B p q := by
  show (FloatOps.matmul dot_S256x1024_S1024x512_S256x512_1_0_0_1_n_n none (truncf (F := Ideal) .bf16 X bitsLt_bf16_f32)
          (truncf (F := Ideal) .bf16 W bitsLt_bf16_f32) (constant (F := Ideal) S256x512 .f32 0x00000000#32) (ix2 p q)
        + FloatOps.matmul dot_S256x2048_S2048x512_S256x512_1_0_0_1_n_n none (truncf (F := Ideal) .bf16 H bitsLt_bf16_f32)
          (truncf (F := Ideal) .bf16 U bitsLt_bf16_f32) (constant (F := Ideal) S256x512 .f32 0x00000000#32) (ix2 p q)
        + broadcastTo S256x512 B broadcasts_S1x512_S256x512 (ix2 p q) : EReal) = _
  rw [Cert.Lib.PlainMatmul.apply dot_S256x1024_S1024x512_S256x512_1_0_0_1_n_n rfl rfl rfl rfl rfl rfl,
    Cert.Lib.PlainMatmul.apply dot_S256x2048_S2048x512_S256x512_1_0_0_1_n_n rfl rfl rfl rfl rfl rfl,
    Cert.Lib.PlainMatmul.rowSpread_apply]
  rfl

/-- The payload stored to the cell-state tile, at one entry. -/
theorem cell_entry (X : Vec Ideal S256x1024 .f32) (H : Vec Ideal S256x2048 .f32) (C : Vec Ideal S256x512 .f32)
    (Wf Wi Wc : Vec Ideal S1024x512 .f32) (Uf Ui Uc : Vec Ideal S2048x512 .f32) (Bf Bi Bc : Vec Ideal S1x512 .f32)
    (p : Fin 256) (q : Fin 512) :
    k0_pay1 (k0_pay3 X) (k0_pay4 H) C (k0_pay5 X H Wf Uf Bf) (k0_pay6 X H Wi Ui Bi) Wc Uc Bc (ix2 p q)
      = cellTile X H C Wf Wi Wc Uf Ui Uc Bf Bi Bc p q :=
  congrArg₂ (· + ·)
    (congrArg (fun z : EReal => Ideal.logistic z * C (ix2 p q)) (gate_entry X H Wf Uf Bf p q))
    (congrArg₂ (fun a b : EReal => Ideal.logistic a * Ideal.tanh b) (gate_entry X H Wi Ui Bi p q) (gate_entry X H Wc Uc Bc p q))

/-- The payload stored to the hidden-state tile, at one entry: the output gate times the hyperbolic tangent of the stored
    cell state. -/
theorem hidden_entry (X : Vec Ideal S256x1024 .f32) (H : Vec Ideal S256x2048 .f32) (C : Vec Ideal S256x512 .f32)
    (Wf Wi Wo Wc : Vec Ideal S1024x512 .f32) (Uf Ui Uo Uc : Vec Ideal S2048x512 .f32) (Bf Bi Bo Bc : Vec Ideal S1x512 .f32)
    (p : Fin 256) (q : Fin 512) :
    k0_pay2 (k0_pay3 X) (k0_pay4 H) C (k0_pay5 X H Wf Uf Bf) (k0_pay6 X H Wi Ui Bi) (k0_pay7 Wo) (k0_pay8 Uo)
        (constant (F := Ideal) S256x512 .f32 0x00000000#32) Bo Wc Uc Bc (ix2 p q)
      = Ideal.logistic (gateTile X H Wo Uo Bo p q) * Ideal.tanh (cellTile X H C Wf Wi Wc Uf Ui Uc Bf Bi Bc p q) :=
  congrArg₂ (fun a b : EReal => Ideal.logistic a * Ideal.tanh b) (gate_entry X H Wo Uo Bo p q)
    (cell_entry X H C Wf Wi Wc Uf Ui Uc Bf Bi Bc p q)

end Cert.Cell.Block

end
-- ==== Proof.CellSpec.lean ====
/-
  One step of an LSTM cell as ONE function of the whole argument arrays, entry by entry, over the extended reals.

  For a batch row p and a hidden column q, each of the four gates (forget, input, output, candidate) has the pre-activation
      z(p, q) = (sum over k of x(p, k) * w(k, q)) + (sum over k of h(p, k) * u(k, q)) + b(0, q)
  with its own weight matrix w (1024 by 2048), recurrent matrix u (2048 by 2048) and one-row bias b. The new cell state is
      c'(p, q) = logistic(z_f) * c(p, q) + logistic(z_i) * tanh(z_c)
  and the new hidden state
      h'(p, q) = logistic(z_o) * tanh(c'(p, q)).
  The logistic function is 1 / (1 + e^(-z)) with the extended reals' conventions at the infinities; a program that spells it
  out with the literal 1.0, a negation, an exponential, a sum and a quotient computes the same function at every z.
-/
import Idealize.ShloMosaic.PureOps.Ideal.Laws
import Idealize.ShloMosaic.Lib.ValueIdx
import Idealize.ShloMosaic.Lib.IdealHost

noncomputable section

open scoped BigOperators
open Idealize.ShloMosaic Idealize.ShloMosaic.ValueIdx

namespace Cert.Cell

/-- The input's shape: 1024 batch rows by 1024 input features. -/
abbrev SIn : Shape := ⟨2, ![1024, 1024]⟩
/-- The shape of the hidden state, the cell state, each input weight matrix and both results: 1024 by 2048. -/
abbrev SHid : Shape := ⟨2, ![1024, 2048]⟩
/-- The shape of each recurrent weight matrix: 2048 by 2048. -/
abbrev SRec : Shape := ⟨2, ![2048, 2048]⟩
/-- The shape of each bias: one row of 2048. -/
abbrev SBias : Shape := ⟨2, ![1, 2048]⟩

/-- A gate's pre-activation at row `p`, column `q`: the input's product with the gate's weights, plus the hidden state's
    product with its recurrent weights, plus its bias. -/
def gatePre (x : SIn.Idx → EReal) (h : SHid.Idx → EReal) (w : SHid.Idx → EReal) (u : SRec.Idx → EReal) (b : SBias.Idx → EReal)
    (p : Fin 1024) (q : Fin 2048) : EReal :=
  (∑ k : Fin 1024, x (ix2 p k) * w (ix2 k q)) + (∑ k : Fin 2048, h (ix2 p k) * u (ix2 k q)) + b (ix2 (0 : Fin 1) q)

/-- The new cell state: at each entry, the forget gate times the old cell state plus the input gate times the candidate. -/
def cellNew (x : SIn.Idx → EReal) (h cOld : SHid.Idx → EReal) (wf wi wc : SHid.Idx → EReal) (uf ui uc : SRec.Idx → EReal)
    (bf bi bc : SBias.Idx → EReal) : SHid.Idx → EReal :=
  fun j => Ideal.logistic (gatePre x h wf uf bf (j 0) (j 1)) * cOld j
    + Ideal.logistic (gatePre x h wi ui bi (j 0) (j 1)) * Ideal.tanh (gatePre x h wc uc bc (j 0) (j 1))

/-- The new hidden state: at each entry, the output gate times the hyperbolic tangent of the new cell state. -/
def hiddenNew (x : SIn.Idx → EReal) (h cOld : SHid.Idx → EReal) (wf wi wo wc : SHid.Idx → EReal) (uf ui uo uc : SRec.Idx → EReal)
    (bf bi bo bc : SBias.Idx → EReal) : SHid.Idx → EReal :=
  fun j => Ideal.logistic (gatePre x h wo uo bo (j 0) (j 1)) * Ideal.tanh (cellNew x h cOld wf wi wc uf ui uc bf bi bc j)

/-- The logistic function spelled out over the single-precision literal 1.0: one over (one plus e to the minus z). -/
theorem spelled_logistic (z : EReal) :
    Ideal.div (Ideal.ofBits .f32 0x3F800000#32) (Ideal.ofBits .f32 0x3F800000#32 + Ideal.exp (-z)) = Ideal.logistic z := by
  rw [Ideal.ofBits_one_f32]
  rfl

end Cert.Cell

end
-- ==== Proof.TileIsCell.lean ====
/-
  A tile of the cell is the cell restricted to the tile's rows and columns.

  Suppose the slabs a grid point holds are cut from the whole arrays along a map `row` from the tile's 256 rows to the batch
  rows and a map `col` from the tile's 512 columns to the hidden columns: the input and hidden-state slabs keep all their
  columns, the weight slabs all their rows, the bias slab its one row, and the cell-state tile is cut along both. Then every
  sum over the contraction coordinate is term by term the whole arrays' sum, so the tile's pre-activations, its new cell state
  and its new hidden state at (p, q) are the whole cell's at (row p, col q).
-/
import proofs.«126930_j41420664603057_1_alg».proof.Proof.TileEntry
import proofs.«126930_j41420664603057_1_alg».proof.Proof.CellSpec

noncomputable section

open scoped BigOperators
open Idealize.ShloMosaic Idealize.ShloMosaic.ValueIdx
open Cert.KernelIdeal Cert.KernelIdeal.Gen

namespace Cert.Cell.Block

variable (row : Fin 256 → Fin 1024) (col : Fin 512 → Fin 2048)

/-- One gate's pre-activation on the tile is the whole pre-activation at the tile's row and column. -/
theorem gateTile_eq (x : SIn.Idx → EReal) (h w : SHid.Idx → EReal) (u : SRec.Idx → EReal) (b : SBias.Idx → EReal)
    (X : S256x1024.Idx → EReal) (H : S256x2048.Idx → EReal) (W : S1024x512.Idx → EReal) (U : S2048x512.Idx → EReal)
    (B : S1x512.Idx → EReal)
    (hX : ∀ (p : Fin 256) (k : Fin 1024), X (ix2 p k) = x (ix2 (row p) k))
    (hH : ∀ (p : Fin 256) (k : Fin 2048), H (ix2 p k) = h (ix2 (row p) k))
    (hW : ∀ (k : Fin 1024) (q : Fin 512), W (ix2 k q) = w (ix2 k (col q)))
    (hU : ∀ (k : Fin 2048) (q : Fin 512), U (ix2 k q) = u (ix2 k (col q)))
    (hB : ∀ q : Fin 512, B (ix2 (0 : Fin 1) q) = b (ix2 (0 : Fin 1) (col q)))
    (p : Fin 256) (q : Fin 512) :
    gateTile X H W U B p q = gatePre x h w u b (row p) (col q) := by
  unfold gateTile gatePre
  simp only [hX, hH, hW, hU, hB]

/-- The tile's new cell state is the whole new cell state at the tile's row and column. -/
theorem cellTile_eq (x : SIn.Idx → EReal) (h cOld wf wi wc : SHid.Idx → EReal) (uf ui uc : SRec.Idx → EReal)
    (bf bi bc : SBias.Idx → EReal)
    (X : S256x1024.Idx → EReal) (H : S256x2048.Idx → EReal) (C : S256x512.Idx → EReal)
    (Wf Wi Wc : S1024x512.Idx → EReal) (Uf Ui Uc : S2048x512.Idx → EReal) (Bf Bi Bc : S1x512.Idx → EReal)
    (hX : ∀ (p : Fin 256) (k : Fin 1024), X (ix2 p k) = x (ix2 (row p) k))
    (hH : ∀ (p : Fin 256) (k : Fin 2048), H (ix2 p k) = h (ix2 (row p) k))
    (hC : ∀ (p : Fin 256) (q : Fin 512), C (ix2 p q) = cOld (ix2 (row p) (col q)))
    (hWf : ∀ (k : Fin 1024) (q : Fin 512), Wf (ix2 k q) = wf (ix2 k (col q)))
    (hWi : ∀ (k : Fin 1024) (q : Fin 512), Wi (ix2 k q) = wi (ix2 k (col q)))
    (hWc : ∀ (k : Fin 1024) (q : Fin 512), Wc (ix2 k q) = wc (ix2 k (col q)))
    (hUf : ∀ (k : Fin 2048) (q : Fin 512), Uf (ix2 k q) = uf (ix2 k (col q)))
    (hUi : ∀ (k : Fin 2048) (q : Fin 512), Ui (ix2 k q) = ui (ix2 k (col q)))
    (hUc : ∀ (k : Fin 2048) (q : Fin 512), Uc (ix2 k q) = uc (ix2 k (col q)))
    (hBf : ∀ q : Fin 512, Bf (ix2 (0 : Fin 1) q) = bf (ix2 (0 : Fin 1) (col q)))
    (hBi : ∀ q : Fin 512, Bi (ix2 (0 : Fin 1) q) = bi (ix2 (0 : Fin 1) (col q)))
    (hBc : ∀ q : Fin 512, Bc (ix2 (0 : Fin 1) q) = bc (ix2 (0 : Fin 1) (col q)))
    (p : Fin 256) (q : Fin 512) :
    cellTile X H C Wf Wi Wc Uf Ui Uc Bf Bi Bc p q
      = cellNew x h cOld wf wi wc uf ui uc bf bi bc (ix2 (row p) (col q)) := by
  unfold cellTile cellNew
  rw [gateTile_eq row col x h wf uf bf X H Wf Uf Bf hX hH hWf hUf hBf, gateTile_eq row col x h wi ui bi X H Wi Ui Bi hX hH hWi hUi hBi,
    gateTile_eq row col x h wc uc bc X H Wc Uc Bc hX hH hWc hUc hBc, hC]

/-- The tile's new hidden state is the whole new hidden state at the tile's row and column. -/
theorem hiddenTile_eq (x : SIn.Idx → EReal) (h cOld wf wi wo wc : SHid.Idx → EReal) (uf ui uo uc : SRec.Idx → EReal)
    (bf bi bo bc : SBias.Idx → EReal)
    (X : S256x1024.Idx → EReal) (H : S256x2048.Idx → EReal) (C : S256x512.Idx → EReal)
    (Wf Wi Wo Wc : S1024x512.Idx → EReal) (Uf Ui Uo Uc : S2048x512.Idx → EReal) (Bf Bi Bo Bc : S1x512.Idx → EReal)
    (hX : ∀ (p : Fin 256) (k : Fin 1024), X (ix2 p k) = x (ix2 (row p) k))
    (hH : ∀ (p : Fin 256) (k : Fin 2048), H (ix2 p k) = h (ix2 (row p) k))
    (hC : ∀ (p : Fin 256) (q : Fin 512), C (ix2 p q) = cOld (ix2 (row p) (col q)))
    (hWf : ∀ (k : Fin 1024) (q : Fin 512), Wf (ix2 k q) = wf (ix2 k (col q)))
    (hWi : ∀ (k : Fin 1024) (q : Fin 512), Wi (ix2 k q) = wi (ix2 k (col q)))
    (hWo : ∀ (k : Fin 1024) (q : Fin 512), Wo (ix2 k q) = wo (ix2 k (col q)))
    (hWc : ∀ (k : Fin 1024) (q : Fin 512), Wc (ix2 k q) = wc (ix2 k (col q)))
    (hUf : ∀ (k : Fin 2048) (q : Fin 512), Uf (ix2 k q) = uf (ix2 k (col q)))
    (hUi : ∀ (k : Fin 2048) (q : Fin 512), Ui (ix2 k q) = ui (ix2 k (col q)))
    (hUo : ∀ (k : Fin 2048) (q : Fin 512), Uo (ix2 k q) = uo (ix2 k (col q)))
    (hUc : ∀ (k : Fin 2048) (q : Fin 512), Uc (ix2 k q) = uc (ix2 k (col q)))
    (hBf : ∀ q : Fin 512, Bf (ix2 (0 : Fin 1) q) = bf (ix2 (0 : Fin 1) (col q)))
    (hBi : ∀ q : Fin 512, Bi (ix2 (0 : Fin 1) q) = bi (ix2 (0 : Fin 1) (col q)))
    (hBo : ∀ q : Fin 512, Bo (ix2 (0 : Fin 1) q) = bo (ix2 (0 : Fin 1) (col q)))
    (hBc : ∀ q : Fin 512, Bc (ix2 (0 : Fin 1) q) = bc (ix2 (0 : Fin 1) (col q)))
    (p : Fin 256) (q : Fin 512) :
    Ideal.logistic (gateTile X H Wo Uo Bo p q) * Ideal.tanh (cellTile X H C Wf Wi Wc Uf Ui Uc Bf Bi Bc p q)
      = hiddenNew x h cOld wf wi wo wc uf ui uo uc bf bi bo bc (ix2 (row p) (col q)) := by
  unfold hiddenNew
  rw [gateTile_eq row col x h wo uo bo X H Wo Uo Bo hX hH hWo hUo hBo,
    cellTile_eq row col x h cOld wf wi wc uf ui uc bf bi bc X H C Wf Wi Wc Uf Ui Uc Bf Bi Bc hX hH hC hWf hWi hWc hUf hUi hUc hBf hBi hBc]

end Cert.Cell.Block

end
-- ==== Proof.ArrayIsCell.lean ====
/-
  The kernel's two result arrays, entry by entry, are the cell's new hidden state and new cell state.

  The grid has four column blocks (the slow coordinate) by four row blocks. At a grid point with row block b and column block n
  the body is given rows 256 b .. 256 b + 255 of the input and of the hidden state (all their columns), columns
  512 n .. 512 n + 511 of every weight matrix, recurrent matrix and bias (all their rows), and the (b, n) tile of the old cell
  state; it writes back the (b, n) tile of both results. So each slab's entry is the whole array's entry at the shifted row or
  column, the written tile is the cell restricted to those rows and columns, and the sixteen tiles fill the 1024 by 2048
  results: the tile holding entry (r, s) is the one with b = r / 256 and n = s / 512.
-/
import proofs.«126930_j41420664603057_1_alg».proof.Proof.Gen.KernelIdeal.Value
import proofs.«126930_j41420664603057_1_alg».proof.Proof.TileIsCell
import Idealize.ShloMosaic.Lib.Pipeline.Value
import Idealize.ShloMosaic.Lib.ValueIdx

noncomputable section

open Cert.KernelIdeal Cert.KernelIdeal.Gen Idealize.ShloMosaic Idealize.ShloMosaic.TcCoe Idealize.SL.Sem
open Idealize.ShloMosaic.ValueIdx
open Idealize.ShloMosaic.Pipeline (Dat)

namespace Cert.Cell.Array

open Cert.Cell.Block

variable (m : (ℓ : Loc nD τ sig) → Buf (Elt Ideal) ℓ) (ρ : Dev nD → PrngReg)

/-- Every load and store of the body starts at the origin of its buffer. -/
theorem origin : (![0, 0] : Fin 2 → Nat) = fun _ => 0 := funext fun a => by fin_cases a <;> rfl

/-! ## Where each window's block sits, decided over the sixteen grid points -/

/-- The result tiles' block indices stay within the four by four tiling. -/
theorem out_range : ∀ t : Fin cfg0.N, win0_15.index t (0 : Fin 2) ≤ 3 ∧ win0_15.index t (1 : Fin 2) ≤ 3 :=
  (by decide +kernel : ∀ t : Fin grid0.N, _)

/-- Every tile of the four by four tiling is some grid point's. -/
theorem out_onto : ∀ (b : Fin 4) (n : Fin 4), ∃ t : Fin cfg0.N, win0_15.index t = ![b.val, n.val] :=
  (by decide +kernel : ∀ (b : Fin 4) (n : Fin 4), ∃ t : Fin grid0.N, win0_15.index t = ![b.val, n.val])

/-- The cell-state result moves with the hidden-state result. -/
theorem at16 : ∀ t : Fin cfg0.N, win0_16.index t (0 : Fin 2) = win0_15.index t (0 : Fin 2)
    ∧ win0_16.index t (1 : Fin 2) = win0_15.index t (1 : Fin 2) :=
  (by decide +kernel : ∀ t : Fin grid0.N, _)

/-- The input slab: the tile's row block, all columns. -/
theorem at0 : ∀ t : Fin cfg0.N, win0_0.index t (0 : Fin 2) = win0_15.index t (0 : Fin 2) ∧ win0_0.index t (1 : Fin 2) = 0 :=
  (by decide +kernel : ∀ t : Fin grid0.N, _)
/-- The hidden-state slab: the tile's row block, all columns. -/
theorem at1 : ∀ t : Fin cfg0.N, win0_1.index t (0 : Fin 2) = win0_15.index t (0 : Fin 2) ∧ win0_1.index t (1 : Fin 2) = 0 :=
  (by decide +kernel : ∀ t : Fin grid0.N, _)
/-- The old cell state: the tile itself. -/
theorem at2 : ∀ t : Fin cfg0.N, win0_2.index t (0 : Fin 2) = win0_15.index t (0 : Fin 2)
    ∧ win0_2.index t (1 : Fin 2) = win0_15.index t (1 : Fin 2) :=
  (by decide +kernel : ∀ t : Fin grid0.N, _)
/-- The four weight slabs: all rows, the tile's column block. -/
theorem at3 : ∀ t : Fin cfg0.N, win0_3.index t (0 : Fin 2) = 0 ∧ win0_3.index t (1 : Fin 2) = win0_15.index t (1 : Fin 2) :=
  (by decide +kernel : ∀ t : Fin grid0.N, _)
theorem at4 : ∀ t : Fin cfg0.N, win0_4.index t (0 : Fin 2) = 0 ∧ win0_4.index t (1 : Fin 2) = win0_15.index t (1 : Fin 2) :=
  (by decide +kernel : ∀ t : Fin grid0.N, _)
theorem at5 : ∀ t : Fin cfg0.N, win0_5.index t (0 : Fin 2) = 0 ∧ win0_5.index t (1 : Fin 2) = win0_15.index t (1 : Fin 2) :=
  (by decide +kernel : ∀ t : Fin grid0.N, _)
theorem at6 : ∀ t : Fin cfg0.N, win0_6.index t (0 : Fin 2) = 0 ∧ win0_6.index t (1 : Fin 2) = win0_15.index t (1 : Fin 2) :=
  (by decide +kernel : ∀ t : Fin grid0.N, _)
/-- The four recurrent-weight slabs: all rows, the tile's column block. -/
theorem at7 : ∀ t : Fin cfg0.N, win0_7.index t (0 : Fin 2) = 0 ∧ win0_7.index t (1 : Fin 2) = win0_15.index t (1 : Fin 2) :=
  (by decide +kernel : ∀ t : Fin grid0.N, _)
theorem at8 : ∀ t : Fin cfg0.N, win0_8.index t (0 : Fin 2) = 0 ∧ win0_8.index t (1 : Fin 2) = win0_15.index t (1 : Fin 2) :=
  (by decide +kernel : ∀ t : Fin grid0.N, _)
theorem at9 : ∀ t : Fin cfg0.N, win0_9.index t (0 : Fin 2) = 0 ∧ win0_9.index t (1 : Fin 2) = win0_15.index t (1 : Fin 2) :=
  (by decide +kernel : ∀ t : Fin grid0.N, _)
theorem at10 : ∀ t : Fin cfg0.N, win0_10.index t (0 : Fin 2) = 0 ∧ win0_10.index t (1 : Fin 2) = win0_15.index t (1 : Fin 2) :=
  (by decide +kernel : ∀ t : Fin grid0.N, _)
/-- The four bias slabs: the one row, the tile's column block. -/
theorem at11 : ∀ t : Fin cfg0.N, win0_11.index t (0 : Fin 2) = 0 ∧ win0_11.index t (1 : Fin 2) = win0_15.index t (1 : Fin 2) :=
  (by decide +kernel : ∀ t : Fin grid0.N, _)
theorem at12 : ∀ t : Fin cfg0.N, win0_12.index t (0 : Fin 2) = 0 ∧ win0_12.index t (1 : Fin 2) = win0_15.index t (1 : Fin 2) :=
  (by decide +kernel : ∀ t : Fin grid0.N, _)
theorem at13 : ∀ t : Fin cfg0.N, win0_13.index t (0 : Fin 2) = 0 ∧ win0_13.index t (1 : Fin 2) = win0_15.index t (1 : Fin 2) :=
  (by decide +kernel : ∀ t : Fin grid0.N, _)
theorem at14 : ∀ t : Fin cfg0.N, win0_14.index t (0 : Fin 2) = 0 ∧ win0_14.index t (1 : Fin 2) = win0_15.index t (1 : Fin 2) :=
  (by decide +kernel : ∀ t : Fin grid0.N, _)

/-- The batch row of the tile's row `p` at grid point `t`. -/
def rowOf (t : Fin cfg0.N) (p : Fin 256) : Fin 1024 :=
  ⟨win0_15.index t (0 : Fin 2) * 256 + p.val, by have h := (out_range t).1; have hp := p.isLt; omega⟩

/-- The hidden column of the tile's column `q` at grid point `t`. -/
def colOf (t : Fin cfg0.N) (q : Fin 512) : Fin 2048 :=
  ⟨win0_15.index t (1 : Fin 2) * 512 + q.val, by have h := (out_range t).2; have hq := q.isLt; omega⟩

/-! ## The slabs, read through their windows

A block's entry sits in its array at (block index times block extent plus the coordinate inside the block) on each axis. -/

/-- The input slab at grid point `t`. -/
abbrev slabX (c : Dev nD) (t : Fin cfg0.N) : Vec Ideal S256x1024 .f32 := iblk m c 0 t
/-- The hidden-state slab. -/
abbrev slabH (c : Dev nD) (t : Fin cfg0.N) : Vec Ideal S256x2048 .f32 := iblk m c 1 t
/-- The old cell state's tile. -/
abbrev tileC (c : Dev nD) (t : Fin cfg0.N) : Vec Ideal S256x512 .f32 := iblk m c 2 t
/-- The forget, input, output and candidate gates' weight slabs. -/
abbrev slabWf (c : Dev nD) (t : Fin cfg0.N) : Vec Ideal S1024x512 .f32 := iblk m c 3 t
abbrev slabWi (c : Dev nD) (t : Fin cfg0.N) : Vec Ideal S1024x512 .f32 := iblk m c 4 t
abbrev slabWo (c : Dev nD) (t : Fin cfg0.N) : Vec Ideal S1024x512 .f32 := iblk m c 5 t
abbrev slabWc (c : Dev nD) (t : Fin cfg0.N) : Vec Ideal S1024x512 .f32 := iblk m c 6 t
/-- The four gates' recurrent-weight slabs. -/
abbrev slabUf (c : Dev nD) (t : Fin cfg0.N) : Vec Ideal S2048x512 .f32 := iblk m c 7 t
abbrev slabUi (c : Dev nD) (t : Fin cfg0.N) : Vec Ideal S2048x512 .f32 := iblk m c 8 t
abbrev slabUo (c : Dev nD) (t : Fin cfg0.N) : Vec Ideal S2048x512 .f32 := iblk m c 9 t
abbrev slabUc (c : Dev nD) (t : Fin cfg0.N) : Vec Ideal S2048x512 .f32 := iblk m c 10 t
/-- The four gates' bias slabs. -/
abbrev slabBf (c : Dev nD) (t : Fin cfg0.N) : Vec Ideal S1x512 .f32 := iblk m c 11 t
abbrev slabBi (c : Dev nD) (t : Fin cfg0.N) : Vec Ideal S1x512 .f32 := iblk m c 12 t
abbrev slabBo (c : Dev nD) (t : Fin cfg0.N) : Vec Ideal S1x512 .f32 := iblk m c 13 t
abbrev slabBc (c : Dev nD) (t : Fin cfg0.N) : Vec Ideal S1x512 .f32 := iblk m c 14 t

theorem slabX_apply (c : Dev nD) (t : Fin cfg0.N) (p : Fin 256) (k : Fin 1024) :
    slabX m c t (ix2 p k) = V m c main_arg0 (ix2 (rowOf t p) k) := by
  show V m c main_arg0 (((cfg0.win 0).blk t).view.emb (ix2 p k)) = _
  refine congrArg _ (funext fun a => Fin.ext ?_)
  obtain ⟨e0, e1⟩ := at0 t
  match a with
  | ⟨0, _⟩ => show win0_0.index t (0 : Fin 2) * 256 + 1 * p.val = win0_15.index t (0 : Fin 2) * 256 + p.val; omega
  | ⟨1, _⟩ => show win0_0.index t (1 : Fin 2) * 1024 + 1 * k.val = k.val; omega

theorem slabH_apply (c : Dev nD) (t : Fin cfg0.N) (p : Fin 256) (k : Fin 2048) :
    slabH m c t (ix2 p k) = V m c main_arg1 (ix2 (rowOf t p) k) := by
  show V m c main_arg1 (((cfg0.win 1).blk t).view.emb (ix2 p k)) = _
  refine congrArg _ (funext fun a => Fin.ext ?_)
  obtain ⟨e0, e1⟩ := at1 t
  match a with
  | ⟨0, _⟩ => show win0_1.index t (0 : Fin 2) * 256 + 1 * p.val = win0_15.index t (0 : Fin 2) * 256 + p.val; omega
  | ⟨1, _⟩ => show win0_1.index t (1 : Fin 2) * 2048 + 1 * k.val = k.val; omega

theorem tileC_apply (c : Dev nD) (t : Fin cfg0.N) (p : Fin 256) (q : Fin 512) :
    tileC m c t (ix2 p q) = V m c main_arg2 (ix2 (rowOf t p) (colOf t q)) := by
  show V m c main_arg2 (((cfg0.win 2).blk t).view.emb (ix2 p q)) = _
  refine congrArg _ (funext fun a => Fin.ext ?_)
  obtain ⟨e0, e1⟩ := at2 t
  match a with
  | ⟨0, _⟩ => show win0_2.index t (0 : Fin 2) * 256 + 1 * p.val = win0_15.index t (0 : Fin 2) * 256 + p.val; omega
  | ⟨1, _⟩ => show win0_2.index t (1 : Fin 2) * 512 + 1 * q.val = win0_15.index t (1 : Fin 2) * 512 + q.val; omega

theorem slabWf_apply (c : Dev nD) (t : Fin cfg0.N) (k : Fin 1024) (q : Fin 512) :
    slabWf m c t (ix2 k q) = V m c main_arg3 (ix2 k (colOf t q)) := by
  show V m c main_arg3 (((cfg0.win 3).blk t).view.emb (ix2 k q)) = _
  refine congrArg _ (funext fun a => Fin.ext ?_)
  obtain ⟨e0, e1⟩ := at3 t
  match a with
  | ⟨0, _⟩ => show win0_3.index t (0 : Fin 2) * 1024 + 1 * k.val = k.val; omega
  | ⟨1, _⟩ => show win0_3.index t (1 : Fin 2) * 512 + 1 * q.val = win0_15.index t (1 : Fin 2) * 512 + q.val; omega

theorem slabWi_apply (c : Dev nD) (t : Fin cfg0.N) (k : Fin 1024) (q : Fin 512) :
    slabWi m c t (ix2 k q) = V m c main_arg4 (ix2 k (colOf t q)) := by
  show V m c main_arg4 (((cfg0.win 4).blk t).view.emb (ix2 k q)) = _
  refine congrArg _ (funext fun a => Fin.ext ?_)
  obtain ⟨e0, e1⟩ := at4 t
  match a with
  | ⟨0, _⟩ => show win0_4.index t (0 : Fin 2) * 1024 + 1 * k.val = k.val; omega
  | ⟨1, _⟩ => show win0_4.index t (1 : Fin 2) * 512 + 1 * q.val = win0_15.index t (1 : Fin 2) * 512 + q.val; omega

theorem slabWo_apply (c : Dev nD) (t : Fin cfg0.N) (k : Fin 1024) (q : Fin 512) :
    slabWo m c t (ix2 k q) = V m c main_arg5 (ix2 k (colOf t q)) := by
  show V m c main_arg5 (((cfg0.win 5).blk t).view.emb (ix2 k q)) = _
  refine congrArg _ (funext fun a => Fin.ext ?_)
  obtain ⟨e0, e1⟩ := at5 t
  match a with
  | ⟨0, _⟩ => show win0_5.index t (0 : Fin 2) * 1024 + 1 * k.val = k.val; omega
  | ⟨1, _⟩ => show win0_5.index t (1 : Fin 2) * 512 + 1 * q.val = win0_15.index t (1 : Fin 2) * 512 + q.val; omega

theorem slabWc_apply (c : Dev nD) (t : Fin cfg0.N) (k : Fin 1024) (q : Fin 512) :
    slabWc m c t (ix2 k q) = V m c main_arg6 (ix2 k (colOf t q)) := by
  show V m c main_arg6 (((cfg0.win 6).blk t).view.emb (ix2 k q)) = _
  refine congrArg _ (funext fun a => Fin.ext ?_)
  obtain ⟨e0, e1⟩ := at6 t
  match a with
  | ⟨0, _⟩ => show win0_6.index t (0 : Fin 2) * 1024 + 1 * k.val = k.val; omega
  | ⟨1, _⟩ => show win0_6.index t (1 : Fin 2) * 512 + 1 * q.val = win0_15.index t (1 : Fin 2) * 512 + q.val; omega

theorem slabUf_apply (c : Dev nD) (t : Fin cfg0.N) (k : Fin 2048) (q : Fin 512) :
    slabUf m c t (ix2 k q) = V m c main_arg7 (ix2 k (colOf t q)) := by
  show V m c main_arg7 (((cfg0.win 7).blk t).view.emb (ix2 k q)) = _
  refine congrArg _ (funext fun a => Fin.ext ?_)
  obtain ⟨e0, e1⟩ := at7 t
  match a with
  | ⟨0, _⟩ => show win0_7.index t (0 : Fin 2) * 2048 + 1 * k.val = k.val; omega
  | ⟨1, _⟩ => show win0_7.index t (1 : Fin 2) * 512 + 1 * q.val = win0_15.index t (1 : Fin 2) * 512 + q.val; omega

theorem slabUi_apply (c : Dev nD) (t : Fin cfg0.N) (k : Fin 2048) (q : Fin 512) :
    slabUi m c t (ix2 k q) = V m c main_arg8 (ix2 k (colOf t q)) := by
  show V m c main_arg8 (((cfg0.win 8).blk t).view.emb (ix2 k q)) = _
  refine congrArg _ (funext fun a => Fin.ext ?_)
  obtain ⟨e0, e1⟩ := at8 t
  match a with
  | ⟨0, _⟩ => show win0_8.index t (0 : Fin 2) * 2048 + 1 * k.val = k.val; omega
  | ⟨1, _⟩ => show win0_8.index t (1 : Fin 2) * 512 + 1 * q.val = win0_15.index t (1 : Fin 2) * 512 + q.val; omega

theorem slabUo_apply (c : Dev nD) (t : Fin cfg0.N) (k : Fin 2048) (q : Fin 512) :
    slabUo m c t (ix2 k q) = V m c main_arg9 (ix2 k (colOf t q)) := by
  show V m c main_arg9 (((cfg0.win 9).blk t).view.emb (ix2 k q)) = _
  refine congrArg _ (funext fun a => Fin.ext ?_)
  obtain ⟨e0, e1⟩ := at9 t
  match a with
  | ⟨0, _⟩ => show win0_9.index t (0 : Fin 2) * 2048 + 1 * k.val = k.val; omega
  | ⟨1, _⟩ => show win0_9.index t (1 : Fin 2) * 512 + 1 * q.val = win0_15.index t (1 : Fin 2) * 512 + q.val; omega

theorem slabUc_apply (c : Dev nD) (t : Fin cfg0.N) (k : Fin 2048) (q : Fin 512) :
    slabUc m c t (ix2 k q) = V m c main_arg10 (ix2 k (colOf t q)) := by
  show V m c main_arg10 (((cfg0.win 10).blk t).view.emb (ix2 k q)) = _
  refine congrArg _ (funext fun a => Fin.ext ?_)
  obtain ⟨e0, e1⟩ := at10 t
  match a with
  | ⟨0, _⟩ => show win0_10.index t (0 : Fin 2) * 2048 + 1 * k.val = k.val; omega
  | ⟨1, _⟩ => show win0_10.index t (1 : Fin 2) * 512 + 1 * q.val = win0_15.index t (1 : Fin 2) * 512 + q.val; omega

theorem slabBf_apply (c : Dev nD) (t : Fin cfg0.N) (q : Fin 512) :
    slabBf m c t (ix2 (0 : Fin 1) q) = V m c main_arg11 (ix2 (0 : Fin 1) (colOf t q)) := by
  show V m c main_arg11 (((cfg0.win 11).blk t).view.emb (ix2 (0 : Fin 1) q)) = _
  refine congrArg _ (funext fun a => Fin.ext ?_)
  obtain ⟨e0, e1⟩ := at11 t
  match a with
  | ⟨0, _⟩ => show win0_11.index t (0 : Fin 2) * 1 + 1 * 0 = 0; omega
  | ⟨1, _⟩ => show win0_11.index t (1 : Fin 2) * 512 + 1 * q.val = win0_15.index t (1 : Fin 2) * 512 + q.val; omega

theorem slabBi_apply (c : Dev nD) (t : Fin cfg0.N) (q : Fin 512) :
    slabBi m c t (ix2 (0 : Fin 1) q) = V m c main_arg12 (ix2 (0 : Fin 1) (colOf t q)) := by
  show V m c main_arg12 (((cfg0.win 12).blk t).view.emb (ix2 (0 : Fin 1) q)) = _
  refine congrArg _ (funext fun a => Fin.ext ?_)
  obtain ⟨e0, e1⟩ := at12 t
  match a with
  | ⟨0, _⟩ => show win0_12.index t (0 : Fin 2) * 1 + 1 * 0 = 0; omega
  | ⟨1, _⟩ => show win0_12.index t (1 : Fin 2) * 512 + 1 * q.val = win0_15.index t (1 : Fin 2) * 512 + q.val; omega

theorem slabBo_apply (c : Dev nD) (t : Fin cfg0.N) (q : Fin 512) :
    slabBo m c t (ix2 (0 : Fin 1) q) = V m c main_arg13 (ix2 (0 : Fin 1) (colOf t q)) := by
  show V m c main_arg13 (((cfg0.win 13).blk t).view.emb (ix2 (0 : Fin 1) q)) = _
  refine congrArg _ (funext fun a => Fin.ext ?_)
  obtain ⟨e0, e1⟩ := at13 t
  match a with
  | ⟨0, _⟩ => show win0_13.index t (0 : Fin 2) * 1 + 1 * 0 = 0; omega
  | ⟨1, _⟩ => show win0_13.index t (1 : Fin 2) * 512 + 1 * q.val = win0_15.index t (1 : Fin 2) * 512 + q.val; omega

theorem slabBc_apply (c : Dev nD) (t : Fin cfg0.N) (q : Fin 512) :
    slabBc m c t (ix2 (0 : Fin 1) q) = V m c main_arg14 (ix2 (0 : Fin 1) (colOf t q)) := by
  show V m c main_arg14 (((cfg0.win 14).blk t).view.emb (ix2 (0 : Fin 1) q)) = _
  refine congrArg _ (funext fun a => Fin.ext ?_)
  obtain ⟨e0, e1⟩ := at14 t
  match a with
  | ⟨0, _⟩ => show win0_14.index t (0 : Fin 2) * 1 + 1 * 0 = 0; omega
  | ⟨1, _⟩ => show win0_14.index t (1 : Fin 2) * 512 + 1 * q.val = win0_15.index t (1 : Fin 2) * 512 + q.val; omega

/-! ## What a grid point writes back is the cell's tile -/

/-- The new hidden state of the arrays the region finds. -/
abbrev hiddenArr (c : Dev nD) : S1024x2048.Idx → EReal :=
  hiddenNew (V m c main_arg0) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13) (V m c main_arg14)

/-- The new cell state of the arrays the region finds. -/
abbrev cellArr (c : Dev nD) : S1024x2048.Idx → EReal :=
  cellNew (V m c main_arg0) (V m c main_arg1) (V m c main_arg2) (V m c main_arg3) (V m c main_arg4) (V m c main_arg6)
    (V m c main_arg7) (V m c main_arg8) (V m c main_arg10) (V m c main_arg11) (V m c main_arg12) (V m c main_arg14)

/-- Grid point `t` writes back the tile of the new hidden state at its rows and columns. -/
theorem hidden_tile (c : Dev nD) (t : Fin cfg0.N) :
    (dats m 0 c).flushed 15 t = ((cfg0.win 15).blk t).view.read (Elt Ideal) (hiddenArr m c) := by
  rw [Cert.KernelIdeal.Value.flushed15]
  unfold out0_15
  rw [View.canon_unit_zero origin]
  simp only [View.ld_unit_zero (S := S256x1024) origin, View.ld_unit_zero (S := S256x2048) origin,
    View.ld_unit_zero (S := S256x512) origin, View.ld_unit_zero (S := S1024x512) origin,
    View.ld_unit_zero (S := S2048x512) origin, View.ld_unit_zero (S := S1x512) origin]
  funext j
  obtain ⟨p, q, rfl⟩ : ∃ (p : Fin 256) (q : Fin 512), j = ix2 p q := ⟨j 0, j 1, eq_ix2 j⟩
  have hemb : ((cfg0.win 15).blk t).view.emb (ix2 p q) = ix2 (rowOf t p) (colOf t q) :=
    funext fun a => Fin.ext (by
      match a with
      | ⟨0, _⟩ => show win0_15.index t (0 : Fin 2) * 256 + 1 * p.val = win0_15.index t (0 : Fin 2) * 256 + p.val; omega
      | ⟨1, _⟩ => show win0_15.index t (1 : Fin 2) * 512 + 1 * q.val = win0_15.index t (1 : Fin 2) * 512 + q.val; omega)
  show k0_pay2 (k0_pay3 (slabX m c t)) (k0_pay4 (slabH m c t)) (tileC m c t)
      (k0_pay5 (slabX m c t) (slabH m c t) (slabWf m c t) (slabUf m c t) (slabBf m c t))
      (k0_pay6 (slabX m c t) (slabH m c t) (slabWi m c t) (slabUi m c t) (slabBi m c t))
      (k0_pay7 (slabWo m c t)) (k0_pay8 (slabUo m c t)) (constant (F := Ideal) S256x512 .f32 0x00000000#32)
      (slabBo m c t) (slabWc m c t) (slabUc m c t) (slabBc m c t) (ix2 p q)
    = hiddenArr m c (((cfg0.win 15).blk t).view.emb (ix2 p q))
  rw [hemb]
  refine (hidden_entry (slabX m c t) (slabH m c t) (tileC m c t) (slabWf m c t) (slabWi m c t) (slabWo m c t) (slabWc m c t)
    (slabUf m c t) (slabUi m c t) (slabUo m c t) (slabUc m c t) (slabBf m c t) (slabBi m c t) (slabBo m c t) (slabBc m c t)
    p q).trans ?_
  exact hiddenTile_eq (rowOf t) (colOf t) _ _ _ _ _ _ _ _ _ _ _ _ _ _ _ _ _ _ _ _ _ _ _ _ _ _ _ _ _ _
    (slabX_apply m c t) (slabH_apply m c t) (tileC_apply m c t) (slabWf_apply m c t) (slabWi_apply m c t)
    (slabWo_apply m c t) (slabWc_apply m c t) (slabUf_apply m c t) (slabUi_apply m c t) (slabUo_apply m c t)
    (slabUc_apply m c t) (slabBf_apply m c t) (slabBi_apply m c t) (slabBo_apply m c t) (slabBc_apply m c t) p q

/-- Grid point `t` writes back the tile of the new cell state at its rows and columns. -/
theorem cell_tile (c : Dev nD) (t : Fin cfg0.N) :
    (dats m 0 c).flushed 16 t = ((cfg0.win 16).blk t).view.read (Elt Ideal) (cellArr m c) := by
  rw [Cert.KernelIdeal.Value.flushed16]
  unfold out0_16
  rw [View.canon_unit_zero origin]
  simp only [View.ld_unit_zero (S := S256x1024) origin, View.ld_unit_zero (S := S256x2048) origin,
    View.ld_unit_zero (S := S256x512) origin, View.ld_unit_zero (S := S1024x512) origin,
    View.ld_unit_zero (S := S2048x512) origin, View.ld_unit_zero (S := S1x512) origin]
  funext j
  obtain ⟨p, q, rfl⟩ : ∃ (p : Fin 256) (q : Fin 512), j = ix2 p q := ⟨j 0, j 1, eq_ix2 j⟩
  obtain ⟨e0, e1⟩ := at16 t
  have hemb : ((cfg0.win 16).blk t).view.emb (ix2 p q) = ix2 (rowOf t p) (colOf t q) :=
    funext fun a => Fin.ext (by
      match a with
      | ⟨0, _⟩ => show win0_16.index t (0 : Fin 2) * 256 + 1 * p.val = win0_15.index t (0 : Fin 2) * 256 + p.val; omega
      | ⟨1, _⟩ => show win0_16.index t (1 : Fin 2) * 512 + 1 * q.val = win0_15.index t (1 : Fin 2) * 512 + q.val; omega)
  show k0_pay1 (k0_pay3 (slabX m c t)) (k0_pay4 (slabH m c t)) (tileC m c t)
      (k0_pay5 (slabX m c t) (slabH m c t) (slabWf m c t) (slabUf m c t) (slabBf m c t))
      (k0_pay6 (slabX m c t) (slabH m c t) (slabWi m c t) (slabUi m c t) (slabBi m c t))
      (slabWc m c t) (slabUc m c t) (slabBc m c t) (ix2 p q)
    = cellArr m c (((cfg0.win 16).blk t).view.emb (ix2 p q))
  rw [hemb]
  refine (cell_entry (slabX m c t) (slabH m c t) (tileC m c t) (slabWf m c t) (slabWi m c t) (slabWc m c t)
    (slabUf m c t) (slabUi m c t) (slabUc m c t) (slabBf m c t) (slabBi m c t) (slabBc m c t) p q).trans ?_
  exact cellTile_eq (rowOf t) (colOf t) _ _ _ _ _ _ _ _ _ _ _ _ _ _ _ _ _ _ _ _ _ _ _ _
    (slabX_apply m c t) (slabH_apply m c t) (tileC_apply m c t) (slabWf_apply m c t) (slabWi_apply m c t)
    (slabWc_apply m c t) (slabUf_apply m c t) (slabUi_apply m c t) (slabUc_apply m c t) (slabBf_apply m c t)
    (slabBi_apply m c t) (slabBc_apply m c t) p q

/-! ## The sixteen tiles fill both results -/

/-- An entry is in grid point `t`'s hidden-state tile iff each coordinate is in the tile's range. -/
theorem mem_tile15 (t : Fin cfg0.N) (i : S1024x2048.Idx) :
    i ∈ ((cfg0.win 15).blk t).view.set ↔ ∀ a : Fin 2, win0_15.index t a * S256x512.size a ≤ (i a).val
      ∧ (i a).val < win0_15.index t a * S256x512.size a + S256x512.size a := by
  show i ∈ ((View.whole main_v0_0).slice (win0_15.rect t)).set ↔ _
  rw [View.set_slice_whole, Rect.mem_set_unit]
  exact Iff.rfl

/-- The same for the cell-state tile. -/
theorem mem_tile16 (t : Fin cfg0.N) (i : S1024x2048.Idx) :
    i ∈ ((cfg0.win 16).blk t).view.set ↔ ∀ a : Fin 2, win0_16.index t a * S256x512.size a ≤ (i a).val
      ∧ (i a).val < win0_16.index t a * S256x512.size a + S256x512.size a := by
  show i ∈ ((View.whole main_v0_1).slice (win0_16.rect t)).set ↔ _
  rw [View.set_slice_whole, Rect.mem_set_unit]
  exact Iff.rfl

/-- Entry (r, s) of the hidden-state result is in the tile with row block r / 256 and column block s / 512. -/
theorem cover15 (i : S1024x2048.Idx) :
    ∃ t : Fin cfg0.N, (cfg0.win 15).flush t = true ∧ i ∈ ((cfg0.win 15).blk t).view.set := by
  have hi0 : (i 0).val < 1024 := (i 0).isLt
  have hi1 : (i 1).val < 2048 := (i 1).isLt
  obtain ⟨t, ht⟩ := out_onto ⟨(i 0).val / 256, by omega⟩ ⟨(i 1).val / 512, by omega⟩
  have q0 : win0_15.index t (0 : Fin 2) = (i 0).val / 256 := congrFun ht 0
  have q1 : win0_15.index t (1 : Fin 2) = (i 1).val / 512 := congrFun ht 1
  refine ⟨t, flush0_15 t, ?_⟩
  rw [mem_tile15]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 512 ≤ (i 1).val ∧ (i 1).val < win0_15.index t (1 : Fin 2) * 512 + 512; omega

/-- The same for the cell-state result. -/
theorem cover16 (i : S1024x2048.Idx) :
    ∃ t : Fin cfg0.N, (cfg0.win 16).flush t = true ∧ i ∈ ((cfg0.win 16).blk t).view.set := by
  have hi0 : (i 0).val < 1024 := (i 0).isLt
  have hi1 : (i 1).val < 2048 := (i 1).isLt
  obtain ⟨t, ht⟩ := out_onto ⟨(i 0).val / 256, by omega⟩ ⟨(i 1).val / 512, by omega⟩
  have q0 : win0_15.index t (0 : Fin 2) = (i 0).val / 256 := congrFun ht 0
  have q1 : win0_15.index t (1 : Fin 2) = (i 1).val / 512 := congrFun ht 1
  obtain ⟨e0, e1⟩ := at16 t
  refine ⟨t, flush0_16 t, ?_⟩
  rw [mem_tile16]
  intro a
  match a with
  | ⟨0, _⟩ => show win0_16.index t (0 : Fin 2) * 256 ≤ (i 0).val ∧ (i 0).val < win0_16.index t (0 : Fin 2) * 256 + 256; omega
  | ⟨1, _⟩ => show win0_16.index t (1 : Fin 2) * 512 ≤ (i 1).val ∧ (i 1).val < win0_16.index t (1 : Fin 2) * 512 + 512; omega

/-- After the run the first result array is the new hidden state of the argument arrays. -/
theorem hidden_final (c : Dev nD) : (dats m 0 c).arrAt 15 cfg0.N = hiddenArr m c :=
  (dats m 0 c).arrAt_eq_of_cover 15 (hiddenArr m c) (fun t _ => hidden_tile m c t) cover15

/-- After the run the second result array is the new cell state of the argument arrays. -/
theorem cell_final (c : Dev nD) : (dats m 0 c).arrAt 16 cfg0.N = cellArr m c :=
  (dats m 0 c).arrAt_eq_of_cover 16 (cellArr m c) (fun t _ => cell_tile m c t) cover16

/-! ## The run, read -/

/-- Every weakly fair execution of the idealized kernel ends with the two results at the cell's formulas of the argument
    arrays, and the arguments unchanged. -/
theorem run : θ_run defs (onTc (τ := τ) (main (F := Ideal))) ⟨m, fun _ => 0, ρ⟩ fun r => ∀ c : Dev nD,
      r.2.mem ((c : Thread nD τ).loc main_v0_0) = hiddenArr m c
      ∧ r.2.mem ((c : Thread nD τ).loc main_v0_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (hidden_final m c), (h c).2.1.trans (cell_final m c), (h c).2.2⟩)
    (Cert.KernelIdeal.Value.run_blocks m ρ)

end Cert.Cell.Array

end
-- ==== Proof.RefIsCell.lean ====
/-
  The reference program's operations, read one entry at a time over the extended reals, are the cell's formulas.

  A gate's pre-activation is two matrix products (each entry a sum over the contraction coordinate), their sum, and the bias
  row spread down the rows. This is one expression of five arrays, the same for all four gates, so it is read once, for
  arbitrary arrays, on the forget gate's stages; the other gates' stages unfold to the same expression at their own arrays. The
  three logistic gates are spelled out on the host as 1 / (1 + e^(-z)) with the literal 1.0, which is the logistic function
  at every extended real. The last five operations combine the gates into the new cell state and the new hidden state.
-/
import proofs.«126930_j41420664603057_1_alg».proof.Proof.Gen.ReferenceIdeal.Read
import proofs.«126930_j41420664603057_1_alg».proof.Proof.CellSpec

noncomputable section

open scoped BigOperators
open Idealize.ShloMosaic Idealize.ShloMosaic.ValueIdx
open Cert.ReferenceIdeal Cert.ReferenceIdeal.Read

namespace Cert.Cell.Ref

/-! ## One gate, for arbitrary arrays -/

/-- In the product with the input, the left operand is read at (row of the entry, k). -/
theorem lhs_in (i : S1024x2048.Idx) (k : Fin 1024) : lidx_main_v0 i k = ix2 (i 0) k :=
  funext fun a => by match a with | ⟨0, _⟩ => rfl | ⟨1, _⟩ => rfl

/-- In the product with the input, the right operand is read at (k, column of the entry). -/
theorem rhs_in (i : S1024x2048.Idx) (k : Fin 1024) : ridx_main_v0 i k = ix2 k (i 1) :=
  funext fun a => by match a with | ⟨0, _⟩ => rfl | ⟨1, _⟩ => rfl

/-- In the product with the hidden state, the left operand is read at (row of the entry, k). -/
theorem lhs_rec (i : S1024x2048.Idx) (k : Fin 2048) : lidx_main_v1 i k = ix2 (i 0) k :=
  funext fun a => by match a with | ⟨0, _⟩ => rfl | ⟨1, _⟩ => rfl

/-- In the product with the hidden state, the right operand is read at (k, column of the entry). -/
theorem rhs_rec (i : S1024x2048.Idx) (k : Fin 2048) : ridx_main_v1 i k = ix2 k (i 1) :=
  funext fun a => by match a with | ⟨0, _⟩ => rfl | ⟨1, _⟩ => rfl

/-- The spread bias is read at (0, column of the entry). -/
theorem bias_row (i : S1024x2048.Idx) : idx_main_v3 i = ix2 (0 : Fin 1) (i 1) :=
  funext fun a => by match a with | ⟨0, _⟩ => rfl | ⟨1, _⟩ => rfl

/-- A gate's pre-activation at an entry, for any input, hidden state, weights, recurrent weights and bias. -/
theorem pre_apply (x : (⟨S1024x1024, .f32⟩ : BufTy).Contents (Elt Ideal)) (h w : (⟨S1024x2048, .f32⟩ : BufTy).Contents (Elt Ideal))
    (u : (⟨S2048x2048, .f32⟩ : BufTy).Contents (Elt Ideal)) (b : (⟨S1x2048, .f32⟩ : BufTy).Contents (Elt Ideal)) (i : S1024x2048.Idx) :
    val_main_v4 (F := Ideal) x h w u b i = gatePre x h w u b (i 0) (i 1) := by
  rw [val_main_v4_apply, val_main_v2_apply, val_main_v0_apply, val_main_v1_apply, val_main_v3_apply]
  simp only [lhs_in, rhs_in, lhs_rec, rhs_rec, bias_row]
  rfl

/-- A logistic gate at an entry, for any arrays: the logistic function of the pre-activation. -/
theorem gate_apply (x : (⟨S1024x1024, .f32⟩ : BufTy).Contents (Elt Ideal)) (h w : (⟨S1024x2048, .f32⟩ : BufTy).Contents (Elt Ideal))
    (u : (⟨S2048x2048, .f32⟩ : BufTy).Contents (Elt Ideal)) (b : (⟨S1x2048, .f32⟩ : BufTy).Contents (Elt Ideal)) (i : S1024x2048.Idx) :
    val_main_v10 (F := Ideal) x h w u b i = Ideal.logistic (gatePre x h w u b (i 0) (i 1)) := by
  rw [val_main_v10_apply, val_main_v9_apply, val_main_cst_0_apply, val_main_v8_apply, val_main_v7_apply, val_main_cst_apply,
    val_main_v6_apply, val_main_v5_apply, pre_apply]
  exact spelled_logistic _

/-! ## The two results -/

variable (x0 : (⟨S1024x1024, .f32⟩ : BufTy).Contents (Elt Ideal)) (x1 x2 x3 x4 x5 x6 : (⟨S1024x2048, .f32⟩ : BufTy).Contents (Elt Ideal))
  (x7 x8 x9 x10 : (⟨S2048x2048, .f32⟩ : BufTy).Contents (Elt Ideal)) (x11 x12 x13 x14 : (⟨S1x2048, .f32⟩ : BufTy).Contents (Elt Ideal))

/-- The reference's new cell state at an entry. The input gate's and the candidate's stages are the forget gate's expression at
    their own arrays. -/
theorem cell_apply (i : S1024x2048.Idx) :
    val_main_v41 (F := Ideal) x0 x1 x2 x3 x4 x6 x7 x8 x10 x11 x12 x14 i = cellNew x0 x1 x2 x3 x4 x6 x7 x8 x10 x11 x12 x14 i := by
  have hf : val_main_v10 (F := Ideal) x0 x1 x3 x7 x11 i = Ideal.logistic (gatePre x0 x1 x3 x7 x11 (i 0) (i 1)) :=
    gate_apply x0 x1 x3 x7 x11 i
  have hi : val_main_v21 (F := Ideal) x0 x1 x4 x8 x12 i = Ideal.logistic (gatePre x0 x1 x4 x8 x12 (i 0) (i 1)) :=
    gate_apply x0 x1 x4 x8 x12 i
  have hc : val_main_v37 (F := Ideal) x0 x1 x6 x10 x14 i = gatePre x0 x1 x6 x10 x14 (i 0) (i 1) :=
    pre_apply x0 x1 x6 x10 x14 i
  rw [val_main_v41_apply, val_main_v39_apply, val_main_v40_apply, val_main_v38_apply, hf, hi, hc]
  rfl

/-- The reference's new hidden state at an entry. -/
theorem hidden_apply (i : S1024x2048.Idx) :
    val_main_v43 (F := Ideal) x0 x1 x2 x3 x4 x5 x6 x7 x8 x9 x10 x11 x12 x13 x14 i
      = hiddenNew x0 x1 x2 x3 x4 x5 x6 x7 x8 x9 x10 x11 x12 x13 x14 i := by
  have ho : val_main_v32 (F := Ideal) x0 x1 x5 x9 x13 i = Ideal.logistic (gatePre x0 x1 x5 x9 x13 (i 0) (i 1)) :=
    gate_apply x0 x1 x5 x9 x13 i
  rw [val_main_v43_apply, val_main_v42_apply, ho, cell_apply]
  rfl

/-- The reference's first result, as an array, is the new hidden state. -/
theorem hidden_eq : val_main_v43 (F := Ideal) x0 x1 x2 x3 x4 x5 x6 x7 x8 x9 x10 x11 x12 x13 x14
    = hiddenNew x0 x1 x2 x3 x4 x5 x6 x7 x8 x9 x10 x11 x12 x13 x14 :=
  funext fun i => hidden_apply x0 x1 x2 x3 x4 x5 x6 x7 x8 x9 x10 x11 x12 x13 x14 i

/-- The reference's second result, as an array, is the new cell state. -/
theorem cell_eq : val_main_v41 (F := Ideal) x0 x1 x2 x3 x4 x6 x7 x8 x10 x11 x12 x14
    = cellNew x0 x1 x2 x3 x4 x6 x7 x8 x10 x11 x12 x14 :=
  funext fun i => cell_apply x0 x1 x2 x3 x4 x6 x7 x8 x10 x11 x12 x14 i

end Cert.Cell.Ref

end
-- ==== Proof.lean ====
/-
  The certificate of one LSTM cell step: a tiled kernel against the plain array program.

  Both programs compute, for every batch row p and hidden column q, the four gates' pre-activations
      z(p, q) = (sum over k of x(p, k) * w(k, q)) + (sum over k of h(p, k) * u(k, q)) + b(0, q),
  the new cell state c' = logistic(z_f) * c + logistic(z_i) * tanh(z_c) and the new hidden state h' = logistic(z_o) * tanh(c').
  Over the extended reals the two differ only in spelling. The kernel narrows its operands to sixteen bits before each product
  (the identity on extended reals), accumulates each product into a zero matrix (the plain sum), uses one logistic operation
  where the array program writes 1 / (1 + e^(-z)) (the same function at every extended real, the infinities included), and works
  tile by tile: sixteen 256 by 512 tiles, each from the row slabs and column slabs it needs, which together fill both results.
  No law of arithmetic beyond reading each sum term by term is used, so the inputs' finiteness is never opened.

  The kernel's frames are the generated ones; the array program's frame is its generated run with the results dropped; the
  idealization changed nothing in the kernel, so there is nothing to preserve; and the two runs end at the same two arrays.
-/
import proofs.«126930_j41420664603057_1_alg».proof.Defs
import proofs.«126930_j41420664603057_1_alg».proof.Proof.Gen.Kernel
import proofs.«126930_j41420664603057_1_alg».proof.Proof.Gen.Kernel.Skeleton
import proofs.«126930_j41420664603057_1_alg».proof.Proof.Gen.Kernel.Launch
import proofs.«126930_j41420664603057_1_alg».proof.Proof.Gen.Kernel.Points
import proofs.«126930_j41420664603057_1_alg».proof.Proof.Gen.Kernel.Frame
import proofs.«126930_j41420664603057_1_alg».proof.Proof.Gen.KernelIdeal
import proofs.«126930_j41420664603057_1_alg».proof.Proof.Gen.KernelIdeal.Skeleton
import proofs.«126930_j41420664603057_1_alg».proof.Proof.Gen.KernelIdeal.Launch
import proofs.«126930_j41420664603057_1_alg».proof.Proof.Gen.KernelIdeal.Points
import proofs.«126930_j41420664603057_1_alg».proof.Proof.Gen.KernelIdeal.Frame
import proofs.«126930_j41420664603057_1_alg».proof.Proof.Gen.ReferenceIdeal
import proofs.«126930_j41420664603057_1_alg».proof.Proof.Gen.KernelIdeal.Value
import proofs.«126930_j41420664603057_1_alg».proof.Proof.Gen.ReferenceIdeal.Run
import proofs.«126930_j41420664603057_1_alg».proof.Proof.Gen.ReferenceIdeal.Read
import proofs.«126930_j41420664603057_1_alg».proof.Proof.Gen.Pre_finite_inputs
import proofs.«126930_j41420664603057_1_alg».proof.Proof.ArrayIsCell
import proofs.«126930_j41420664603057_1_alg».proof.Proof.RefIsCell
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the array program: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the fifteen arguments, the kernel and the array program end with the same new hidden state and
    the same new cell state: each side's results are the cell's formulas of its own arguments, and the arguments agree. -/
theorem algebraic : Cert.algebraic_KernelIdeal_ReferenceIdeal := by
  intro m ρ m' ρ' _ hagree
  refine ⟨fun c => Cert.Cell.Array.hiddenArr m c, fun c => Cert.Cell.Array.cellArr m c, Cert.Cell.Array.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v43_eq, Cert.Cell.Ref.hidden_eq, a0, a1, a2, a3, a4, a5, a6, a7, a8, a9, a10, a11, a12,
      a13, a14]
  · obtain ⟨a0, a1, a2, a3, a4, a5, a6, a7, a8, a9, a10, a11, a12, a13, a14⟩ := hagree c
    rw [Cert.ReferenceIdeal.Read.val_main_v41_eq, Cert.Cell.Ref.cell_eq, a0, a1, a2, a3, a4, a6, a7, a8, a10, a11, a12, a14]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
